-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128x256 : Shape := ⟨2, ![128, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 29
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x256, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x128_S128x128_1_0 : S128x128.Transposes [1, 0] S128x128
  slices_S128x256_S128x128_0_0 : S128x256.Slices ![0, 0] S128x128
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128x256 : Shape := ⟨2, ![128, 256]⟩
abbrev S1600000x1 : Shape := ⟨2, ![1600000, 1]⟩
abbrev S_ : Shape := ⟨0, ![]⟩
abbrev S1600000x128 : Shape := ⟨2, ![1600000, 128]⟩
abbrev S100000x256 : Shape := ⟨2, ![100000, 256]⟩
abbrev S256x128 : Shape := ⟨2, ![256, 128]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x256, .f32⟩
  | .hbm, ⟨6, _⟩ => ⟨S128x128, .f32⟩
  | .hbm, ⟨7, _⟩ => ⟨S100000x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S100000x256, .f32⟩
  | .hbm, ⟨27, _⟩ => ⟨S256x128, .f32⟩
  | .hbm, ⟨28, _⟩ => ⟨S100000x128, .f32⟩
  | .hbm, ⟨29, _⟩ => ⟨S_, .f32⟩
  | .hbm, ⟨30, _⟩ => ⟨S_, .f32⟩
  | .hbm, ⟨31, _⟩ => ⟨S100000x128, .f32⟩
  | .hbm, ⟨32, _⟩ => ⟨S100000x128, .i1⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  transposes_S128x128_S128x128_1_0 : S128x128.Transposes [1, 0] S128x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  The mathematics both programs compute, stated once over literal shapes at the extended reals.

  A graph layer on 100000 nodes with 128 features: project every node's row by a 128 x 128 matrix; along each of
  1600000 weighted edges carry the projected row of the edge's source to its target and add up what arrives
  (the edge stage, which both programs spell with the same host operations and which is therefore kept as it is
  printed, a function of the projected rows); then from a node's own row `x` and its gathered row `n` form the
  two rows `x + n` and `x * n`, multiply each by its own 128 x 128 matrix, add the two products and apply the
  leaky rectifier with slope `f32(0.01)`.

  `rowsTimes X A` is the product of rows with an [in, out] matrix, entry by entry a sum over the 128 inner positions.
  `leakyAt` is the rectifier at one entry. `combine` is the last stage. `sum_halves` is the one law the two
  programs differ by: a sum over 256 positions is the sum over its first 128 plus the sum over its last 128.
-/
import Idealize.ShloMosaic.PureOps.Ideal.Laws
import Idealize.ShloMosaic.Lib.ValueIdx

noncomputable section

open scoped BigOperators

namespace Cert.Bridge

open Idealize.ShloMosaic Idealize.ShloMosaic.ValueIdx

/-- Node features: 100000 rows of 128. -/
abbrev Nodes : Shape := ⟨2, ![100000, 128]⟩
/-- A square weight matrix. -/
abbrev Sq : Shape := ⟨2, ![128, 128]⟩

/-- Rows of `X` times the [in, out] matrix `A`: entry (r, j) is the sum over k of X(r, k) * A(k, j). -/
def rowsTimes (X : Nodes.Idx → EReal) (A : Sq.Idx → EReal) : Nodes.Idx → EReal :=
  fun i => ∑ k : Fin 128, X (ix2 (i 0) k) * A (ix2 k (i 1))

theorem rowsTimes_apply (X : Nodes.Idx → EReal) (A : Sq.Idx → EReal) (r : Fin 100000) (j : Fin 128) :
    rowsTimes X A (ix2 r j) = ∑ k : Fin 128, X (ix2 r k) * A (ix2 k j) := rfl

/-- The leaky rectifier at one entry, with the two literals both programs print: `v` where `v ≥ 0`, else
    `f32(0.01) * v`. -/
def leakyAt (v : EReal) : EReal :=
  Scalar.select (FloatOps.cmpf (F := Ideal) (φ := .f32) .oge v (Ideal.ofBits .f32 0x00000000#32)) v
    (Ideal.ofBits .f32 0x3C23D70A#32 * v)

/-- The last stage: from a node's row `x` and its gathered row `n`, `leaky ((x + n) A + (x * n) B)`. -/
def combine (X Nb : Nodes.Idx → EReal) (A B : Sq.Idx → EReal) : Nodes.Idx → EReal :=
  fun i => leakyAt (rowsTimes (fun j => X j + Nb j) A i + rowsTimes (fun j => X j * Nb j) B i)

theorem combine_apply (X Nb : Nodes.Idx → EReal) (A B : Sq.Idx → EReal) (r : Fin 100000) (j : Fin 128) :
    combine X Nb A B (ix2 r j)
      = leakyAt ((∑ k : Fin 128, (X (ix2 r k) + Nb (ix2 r k)) * A (ix2 k j))
          + ∑ k : Fin 128, (X (ix2 r k) * Nb (ix2 r k)) * B (ix2 k j)) := rfl

/-- A sum over 256 positions is the sum over the first 128 plus the sum over the last 128 (addition on the
    extended reals is commutative and associative; nothing else is used). -/
theorem sum_halves {M : Type*} [AddCommMonoid M] (f : Fin 256 → M) :
    ∑ k : Fin 256, f k = (∑ k : Fin 128, f ⟨k.val, by omega⟩) + ∑ k : Fin 128, f ⟨128 + k.val, by omega⟩ := by
  have h := Fin.sum_univ_add (a := 128) (b := 128) (fun k : Fin (128 + 128) => f ⟨k.val, by omega⟩)
  exact h

end Cert.Bridge

end
-- ==== Proof.RefTerm.lean ====
/-
  The reference program's three stages as functions of its arguments, each the printed operations composed:
  the projection (one matrix product with the transposed weight), the edge stage (rows gathered at the edges' sources,
  scaled by the edges' weights and added up at the edges' targets) and the last stage (the two rows side by side
  against the transposed 128 x 256 weight, then the leaky rectifier). `out` is their composition: what the reference
  returns.
-/
import proofs.«146677_j18270790877214_1_alg».proof.Proof.Gen.ReferenceIdeal
import Idealize.ShloMosaic.PureOps.Ideal

noncomputable section

namespace Cert.Bridge.Ref

open Idealize.ShloMosaic Cert.ReferenceIdeal Cert.ReferenceIdeal.Facts₀

/-- Every node's row times the transposed 128 x 128 weight. -/
def proj (x : FVec Ideal S100000x128 .f32) (w1 : FVec Ideal S128x128 .f32) : FVec Ideal S100000x128 .f32 :=
  Host.dotGeneral dot_S100000x128_S128x128_S100000x128_1_0_0_1_n_n none x
    (transpose S128x128 [1, 0] w1 transposes_S128x128_S128x128_1_0)

/-- The edge stage: the projected row of each edge's source (a negative source counted from the end), scaled by the
    edge's weight, added into the row of the edge's target, starting from zero. -/
def edges (pr : FVec Ideal S100000x128 .f32) (row col : IVec S1600000 32) (val : FVec Ideal S1600000 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (broadcastInDim S1600000x128 ![0, 1] bcast_S1600000x1_S1600000x128_0_1
        (broadcastInDim S1600000x1 ![0] bcast_S1600000_S1600000x1_0 val))
      (Host.gather gather_S100000x128_S1600000x1_S1600000x128_1_0_n_n_0_1_1128 pr
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- What the rectifier is applied to: the rows `x + n` and `x * n` side by side (256 wide) times the transposed
    128 x 256 weight. -/
def pre (x n : FVec Ideal S100000x128 .f32) (w2 : FVec Ideal S128x256 .f32) : FVec Ideal S100000x128 .f32 :=
  Host.dotGeneral dot_S100000x256_S256x128_S100000x128_1_0_0_1_n_n none
    (concatenate S100000x256 1 [⟨S100000x128, addf x n⟩, ⟨S100000x128, mulf x n⟩] concatenates_S100000x128_S100000x128_S100000x256_d1)
    (transpose S256x128 [1, 0] w2 transposes_S128x256_S256x128_1_0)

/-- The leaky rectifier as the reference spells it: `v` where `v ≥ 0`, else `f32(0.01) * v`. -/
def leaky (v : FVec Ideal S100000x128 .f32) : FVec Ideal S100000x128 .f32 :=
  select (cmpf .oge v (broadcastInDim S100000x128 ![] bcast_S_S100000x128 (constant (F := Ideal) S_ .f32 0x00000000#32))) v
    (mulf (broadcastInDim S100000x128 ![] bcast_S_S100000x128 (id (constant (F := Ideal) S_ .f32 0x3C23D70A#32))) v)

/-- What the reference returns. -/
def out (x : FVec Ideal S100000x128 .f32) (row col : IVec S1600000 32) (val : FVec Ideal S1600000 .f32)
    (w1 : FVec Ideal S128x128 .f32) (w2 : FVec Ideal S128x256 .f32) : FVec Ideal S100000x128 .f32 :=
  leaky (pre x (edges (proj x w1) row col val) w2)

end Cert.Bridge.Ref

end
-- ==== Proof.KernelTerm.lean ====
/-
  The kernel program's host stretches as functions: the three weight matrices it hands its two regions (the 128 x 128
  weight transposed; the left and the right half of the 128 x 256 weight, each transposed) and the edge stage between the
  regions (the same operations the reference applies: the projected row of each edge's source, scaled by the edge's
  weight, added into the row of the edge's target). The edge stage is the reference's, term for term.
-/
import proofs.«146677_j18270790877214_1_alg».proof.Proof.Gen.KernelIdeal
import proofs.«146677_j18270790877214_1_alg».proof.Proof.RefTerm
import Idealize.ShloMosaic.PureOps.Ideal

noncomputable section

namespace Cert.Bridge.Kernel

open Idealize.ShloMosaic Cert.KernelIdeal Cert.KernelIdeal.Facts₀

/-- The 128 x 128 weight transposed: what region 0 multiplies rows by. -/
def w1T (w1 : FVec Ideal S128x128 .f32) : FVec Ideal S128x128 .f32 :=
  transpose S128x128 [1, 0] w1 transposes_S128x128_S128x128_1_0

/-- The left half (columns 0 … 127) of the wide weight, transposed. -/
def w2aT (w2 : FVec Ideal S128x256 .f32) : FVec Ideal S128x128 .f32 :=
  transpose S128x128 [1, 0] (extractStridedSlice S128x128 ![0, 0] w2 slices_S128x256_S128x128_0_0) transposes_S128x128_S128x128_1_0

/-- The right half (columns 128 … 255) of the wide weight, transposed. -/
def w2bT (w2 : FVec Ideal S128x256 .f32) : FVec Ideal S128x128 .f32 :=
  transpose S128x128 [1, 0] (extractStridedSlice S128x128 ![0, 128] w2 slices_S128x256_S128x128_0_128) transposes_S128x128_S128x128_1_0

/-- The edge stage between the regions, as the kernel program prints it. -/
def edges (pr : FVec Ideal S100000x128 .f32) (row col : IVec S1600000 32) (val : FVec Ideal S1600000 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (broadcastInDim S1600000x128 ![0, 1] bcast_S1600000x1_S1600000x128_0_1
        (broadcastInDim S1600000x1 ![0] bcast_S1600000_S1600000x1_0 val))
      (Host.gather gather_S100000x128_S1600000x1_S1600000x128_1_0_n_n_0_1_1128 pr
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The two programs' edge stages are one function: the same operations over the same dimension numbers. -/
theorem edges_eq_ref (pr : FVec Ideal S100000x128 .f32) (row col : IVec S1600000 32) (val : FVec Ideal S1600000 .f32) :
    edges pr row col val = Cert.Bridge.Ref.edges pr row col val := rfl

/-- The transposed 128 x 128 weight is the reference's. -/
theorem w1T_eq_ref (w1 : FVec Ideal S128x128 .f32) :
    w1T w1 = transpose Cert.ReferenceIdeal.S128x128 [1, 0] w1 Cert.ReferenceIdeal.Facts₀.transposes_S128x128_S128x128_1_0 := rfl

end Cert.Bridge.Kernel

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.BlockMatmul.lean ====
/-
  One block's matrix product read at an entry.

  A block of 5000 rows of 128 features times a 128 x 128 matrix, accumulated into zero: at the extended reals
  entry (p, q) of the product is the sum over the 128 inner positions k of left (p, k) * right (k, q). The product's
  dimension numbers contract the left operand's axis 1 with the right operand's axis 0 and have no batch axis, so the
  left operand is read at (row of the result, k) and the right operand at (k, column of the result).
-/
import proofs.«146677_j18270790877214_1_alg».proof.Proof.Gen.KernelIdeal
import proofs.«146677_j18270790877214_1_alg».proof.Proof.LibContraction
import Idealize.ShloMosaic.PureOps.Ideal.Laws
import Idealize.ShloMosaic.Lib.ValueIdx

noncomputable section

open scoped BigOperators

namespace Cert.Bridge

open Idealize.ShloMosaic Idealize.ShloMosaic.ValueIdx Cert.KernelIdeal Cert.Lib.Contraction

/-- The inner positions of the block product, numbered 0 … 127. -/
abbrev innerPos : dot_S5000x128_S128x128_S5000x128_1_0_0_1_n_n.contr.Idx ≃ Fin 128 :=
  contrFin dot_S5000x128_S128x128_S5000x128_1_0_0_1_n_n (cl := 1) rfl 128 rfl

/-- The left operand is read in the result's row … -/
theorem blk_lhs_row (j : S5000x128.Idx) (k : dot_S5000x128_S128x128_S5000x128_1_0_0_1_n_n.contr.Idx) :
    (dot_S5000x128_S128x128_S5000x128_1_0_0_1_n_n.lhsIdx j k 0).val = (j 0).val :=
  lhs_free dot_S5000x128_S128x128_S5000x128_1_0_0_1_n_n (nl := 0) rfl rfl j k (by decide)

/-- … at the inner position; -/
theorem blk_lhs_inner (j : S5000x128.Idx) (i : Fin 128) :
    (dot_S5000x128_S128x128_S5000x128_1_0_0_1_n_n.lhsIdx j (innerPos.symm i) 1).val = i.val :=
  lhs_contracted dot_S5000x128_S128x128_S5000x128_1_0_0_1_n_n (cl := 1) rfl 128 rfl j i

/-- the right operand at the inner position … -/
theorem blk_rhs_inner (j : S5000x128.Idx) (i : Fin 128) :
    (dot_S5000x128_S128x128_S5000x128_1_0_0_1_n_n.rhsIdx j (innerPos.symm i) 0).val = i.val :=
  rhs_contracted dot_S5000x128_S128x128_S5000x128_1_0_0_1_n_n (cl := 1) (cr := 0) rfl rfl 128 rfl j i

/-- … in the result's column. -/
theorem blk_rhs_col (j : S5000x128.Idx) (k : dot_S5000x128_S128x128_S5000x128_1_0_0_1_n_n.contr.Idx) :
    (dot_S5000x128_S128x128_S5000x128_1_0_0_1_n_n.rhsIdx j k 1).val = (j 1).val :=
  rhs_free dot_S5000x128_S128x128_S5000x128_1_0_0_1_n_n (nl := 0) (nr := 1) rfl rfl rfl rfl j k (by decide)

/-- Entry (p, q) of a block's product into zero is the sum over the inner positions of left (p, k) * right (k, q). -/
theorem matmul_block_apply {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) := by
  rw [Ideal.matmul_constant_zero_apply]
  refine (sum_contr dot_S5000x128_S128x128_S5000x128_1_0_0_1_n_n (cl := 1) rfl 128 rfl _).trans ?_
  refine Finset.sum_congr rfl fun k _ => ?_
  have hl : dot_S5000x128_S128x128_S5000x128_1_0_0_1_n_n.lhsIdx (ix2 p q) (innerPos.symm k) = ix2 p k := by
    funext a; apply Fin.ext
    match a with
    | ⟨0, _⟩ => exact blk_lhs_row _ _
    | ⟨1, _⟩ => exact blk_lhs_inner _ _
  have hr : dot_S5000x128_S128x128_S5000x128_1_0_0_1_n_n.rhsIdx (ix2 p q) (innerPos.symm k) = ix2 k q := by
    funext a; apply Fin.ext
    match a with
    | ⟨0, _⟩ => exact blk_rhs_inner _ _
    | ⟨1, _⟩ => exact blk_rhs_col _ _
  show l (dot_S5000x128_S128x128_S5000x128_1_0_0_1_n_n.lhsIdx (ix2 p q) (innerPos.symm k))
      * r (dot_S5000x128_S128x128_S5000x128_1_0_0_1_n_n.rhsIdx (ix2 p q) (innerPos.symm k)) = _
  rw [hl, hr]

end Cert.Bridge

end
-- ==== Proof.Region0Value.lean ====
/-
  Region 0 (the projection): the projected array after the region, entry by entry.

  The region walks 20 points; point t stages rows 5000 t … 5000 t + 4999 of the node array and the whole
  128 x 128 matrix, multiplies the block of rows by the matrix and writes the product back to the same rows of
  the projected array. Entry (p, q) of a block's product is the sum over the 128 inner positions k of
  block (p, k) * matrix (k, q); block (p, k) at point t is entry (5000 t + p, k) of the node array; so what point t
  writes back is block t of rows-times-matrix, and the 20 blocks cover all 100000 rows (row r lies in block r / 5000).
-/
import proofs.«146677_j18270790877214_1_alg».proof.Proof.Gen.KernelIdeal.Frame
import proofs.«146677_j18270790877214_1_alg».proof.Proof.Spec
import proofs.«146677_j18270790877214_1_alg».proof.Proof.BlockMatmul
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.Bridge.Region0

open Cert.KernelIdeal Cert.KernelIdeal.Gen Cert.Bridge

variable (V : (c : Dev nD) → (b : Ref sig .tc) → Buf (Elt Ideal) ((c : Thread nD τ).loc b))

/-- The body's loads and its store sit at offsets (0, 0). -/
theorem zero_offsets : (![0, 0] : Fin 2 → Nat) = fun _ => 0 := funext fun a => by fin_cases a <;> rfl

/-- The body's payload at entry (p, q): the sum over the inner positions k of rows (p, k) * matrix (k, q). The
    narrowing of both operands is the identity at the extended reals, and the reshape of the matrix is to its own
    shape. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (matmul_block_apply _ _ p q).trans ?_
  refine Finset.sum_congr rfl fun k _ => ?_
  rw [shapeCast_self]
  rfl

/-- The printed index maps over the 20 points: the rows' window and the output's window are at block (t, 0), the
    matrix's window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of rows staged at point t, at (p, k), is entry (5000 t + p, k) of the node array. -/
theorem rows_block_apply (c : Dev nD) (t : Fin cfg0.N) (p : Fin 5000) (k : Fin 128) (r : Fin 100000)
    (hr : r.val = 5000 * t.val + p.val) :
    (iblk0 V c 0 t : Vec Ideal S5000x128 .f32) (ix2 p k)
      = (V c main_arg0 : S100000x128.Idx → Elt Ideal .f32) (ix2 r k) := by
  obtain ⟨e0, e1, -⟩ := idx_facts t
  unfold iblk0
  rw [View.read_apply]
  show V c main_arg0 _ = V c main_arg0 _
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The matrix staged at any point, at (k, q), is entry (k, q) of the matrix array. -/
theorem matrix_block_apply (c : Dev nD) (t : Fin cfg0.N) (k q : Fin 128) :
    (iblk0 V c 1 t : Vec Ideal S128x128 .f32) (ix2 k q)
      = (V c main_v0 : S128x128.Idx → Elt Ideal .f32) (ix2 k q) := by
  obtain ⟨-, -, e2, e3, -⟩ := idx_facts t
  unfold iblk0
  rw [View.read_apply]
  show V c main_v0 _ = V c main_v0 _
  refine congrArg (V c main_v0) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The 20 points. -/
theorem points : cfg0.N = 20 := N_0

/-- WHAT POINT t WRITES BACK is block t of rows-times-matrix of the two arrays the region found: entry (p, q) of
    the block's product is the sum over k of node (5000 t + p, k) * matrix (k, q), which is rows-times-matrix at
    the block's entry (5000 t + p, q). -/
theorem flushed_eq (c : Dev nD) (t : Fin cfg0.N) :
    (dat0 (F := Ideal) V c).flushed 2 t
      = ((cfg0.win 2).blk t).view.read (Elt Ideal) (rowsTimes (V c main_arg0) (V c main_v0)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e4, e5⟩ := idx_facts t
  have ht : t.val < 20 := points ▸ t.isLt
  funext j
  obtain ⟨p, q, rfl⟩ : ∃ (p : Fin 5000) (q : Fin 128), j = ix2 p q := ⟨j 0, j 1, eq_ix2 j⟩
  have hp : p.val < 5000 := p.isLt
  show k0_pay1 (iblk0 V c 0 t) (iblk0 V c 1 t) (ix2 p q)
      = rowsTimes (V c main_arg0) (V c main_v0) (((cfg0.win 2).blk t).view.emb (ix2 p q))
  have hemb : ((cfg0.win 2).blk t).view.emb (ix2 p q)
      = ix2 (⟨5000 * t.val + p.val, by omega⟩ : Fin 100000) q := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * q.val = q.val; omega
  rw [hemb, rowsTimes_apply, pay_apply]
  refine Finset.sum_congr rfl fun k _ => ?_
  rw [rows_block_apply V c t p k ⟨5000 * t.val + p.val, by omega⟩ rfl, matrix_block_apply V c t k q]

/-- An entry of the projected array is in point t's block iff each coordinate is in the block's range on its axis. -/
theorem mem_blk (t : Fin cfg0.N) (i : S100000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v5).slice (win0_2.rect t)).set ↔ _
  rw [View.set_slice_whole, Rect.mem_set_unit]
  exact Iff.rfl

/-- Every entry of the projected array is written back by some point: row r by point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := points
  let t : Fin cfg0.N := ⟨(i 0).val / 5000, by omega⟩
  obtain ⟨-, -, -, -, e4, e5⟩ := idx_facts t
  have htv : t.val = (i 0).val / 5000 := rfl
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After region 0 the projected array is rows-times-matrix of the two arrays the region found. -/
theorem final (c : Dev nD) :
    (dat0 (F := Ideal) V c).arrAt 2 cfg0.N = rowsTimes (V c main_arg0) (V c main_v0) :=
  (dat0 V c).arrAt_eq_of_cover 2 (rowsTimes (V c main_arg0) (V c main_v0)) (fun t _ => flushed_eq V c t) cover

end Cert.Bridge.Region0

end
-- ==== Proof.Region1Value.lean ====
/-
  Region 1, the combine stage, as a value: after its 20 grid points the result array is `combine` of the four arrays
  the region found.

  Each grid point t stages rows 5000 t … 5000 t + 4999 of the node features x and of the gathered rows n, and the two
  128 x 128 matrices A and B whole; its body computes, entry by entry of the block,
  leaky (((x + n) A) + ((x * n) B)) — the two block products read at an entry as sums over the 128 inner positions —
  and the point writes that block back to rows 5000 t … 5000 t + 4999 of the result. Entry (p, q) of the block at
  point t therefore depends only on row 5000 t + p of x and n and column q of A and B, which is what `combine` reads at
  (5000 t + p, q). The 20 blocks of 5000 rows cover all 100000 rows (row r lies in the block of point r / 5000), so the
  whole array ends as `combine`.
-/
import proofs.«146677_j18270790877214_1_alg».proof.Proof.Gen.KernelIdeal.Frame
import proofs.«146677_j18270790877214_1_alg».proof.Proof.Spec
import proofs.«146677_j18270790877214_1_alg».proof.Proof.BlockMatmul
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.Bridge.Region1
open Cert.KernelIdeal Cert.KernelIdeal.Gen Cert.Bridge

variable (V : (c : Dev nD) → (b : Ref sig .tc) → Buf (Elt Ideal) ((c : Thread nD τ).loc b))

/-- The zero offsets of a whole-block access. -/
theorem zeros : (![0, 0] : Fin 2 → Nat) = fun _ => 0 :=
  funext fun a => match a with | ⟨0, _⟩ => rfl | ⟨1, _⟩ => rfl

/-! ## The body's arithmetic at one entry of a block -/

/-- Entry (p, q) of what the body computes from a block x0 of node rows, a block x1 of gathered rows and the two
    matrices x2, x3: the leaky rectifier of (x0 + x1)(p, ·) · x2(·, q) + (x0 * x1)(p, ·) · x3(·, q). The rounding to the
    narrower format and the reshape to the same shape are the identity at the extended reals. -/
theorem pay_apply (x0 x1 : Vec Ideal S5000x128 .f32) (x2 x3 : Vec Ideal S128x128 .f32) (p : Fin 5000) (q : Fin 128) :
    k1_pay1 x0 x1 x2 x3 (ix2 p q)
      = leakyAt ((∑ k : Fin 128, (x0 (ix2 p k) + x1 (ix2 p k)) * x2 (ix2 k q))
          + ∑ k : Fin 128, (x0 (ix2 p k) * x1 (ix2 p k)) * x3 (ix2 k q)) := by
  unfold k1_pay1
  simp only [shapeCast_self, select_apply, cmpf_apply, mulf_apply, addf_apply, broadcast_apply, Idealize.ShloMosaic.matmul]
  rw [matmul_block_apply, matmul_block_apply]
  rfl

/-! ## The staged blocks as rows of the arrays -/

/-- The index maps over the 20 grid points: the two row windows and the result take block t of rows, the two
    matrix windows the one whole block; and there are 20 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ t.val < 20 :=
  (by decide +kernel : ∀ t : Fin grid1.N, _)

/-- The node-feature block at point t is rows 5000 t … 5000 t + 4999 of the node features. -/
theorem rows_x (c : Dev nD) (t : Fin cfg1.N) (p : Fin 5000) (k : Fin 128) (h : 5000 * t.val + p.val < 100000) :
    (iblk1 V c 0 t : Vec Ideal S5000x128 .f32) (ix2 p k)
      = (V c main_arg0 : Nodes.Idx → EReal) (ix2 ⟨5000 * t.val + p.val, h⟩ k) := by
  obtain ⟨e0, e1, -⟩ := idx_facts t
  unfold iblk1
  rw [View.read_apply]
  show (V c main_arg0 : Nodes.Idx → EReal) (((cfg1.win 0).blk t).view.emb (ix2 p k : S5000x128.Idx)) = _
  refine congrArg (V c main_arg0 : Nodes.Idx → EReal) ?_
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- The gathered-row block at point t is the same rows of the gathered array. -/
theorem rows_n (c : Dev nD) (t : Fin cfg1.N) (p : Fin 5000) (k : Fin 128) (h : 5000 * t.val + p.val < 100000) :
    (iblk1 V c 1 t : Vec Ideal S5000x128 .f32) (ix2 p k)
      = (V c main_v18 : Nodes.Idx → EReal) (ix2 ⟨5000 * t.val + p.val, h⟩ k) := by
  obtain ⟨-, -, e2, e3, -⟩ := idx_facts t
  unfold iblk1
  rw [View.read_apply]
  show (V c main_v18 : Nodes.Idx → EReal) (((cfg1.win 1).blk t).view.emb (ix2 p k : S5000x128.Idx)) = _
  refine congrArg (V c main_v18 : Nodes.Idx → EReal) ?_
  funext a; apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega

/-- The first matrix is staged whole at every point. -/
theorem mat_a (c : Dev nD) (t : Fin cfg1.N) (k q : Fin 128) :
    (iblk1 V c 2 t : Vec Ideal S128x128 .f32) (ix2 k q) = (V c main_v2 : Sq.Idx → EReal) (ix2 k q) := by
  obtain ⟨-, -, -, -, e4, e5, -⟩ := idx_facts t
  unfold iblk1
  rw [View.read_apply]
  show (V c main_v2 : Sq.Idx → EReal) (((cfg1.win 2).blk t).view.emb (ix2 k q : S128x128.Idx)) = _
  refine congrArg (V c main_v2 : Sq.Idx → EReal) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- The second matrix is staged whole at every point. -/
theorem mat_b (c : Dev nD) (t : Fin cfg1.N) (k q : Fin 128) :
    (iblk1 V c 3 t : Vec Ideal S128x128 .f32) (ix2 k q) = (V c main_v4 : Sq.Idx → EReal) (ix2 k q) := by
  obtain ⟨-, -, -, -, -, -, e6, e7, -⟩ := idx_facts t
  unfold iblk1
  rw [View.read_apply]
  show (V c main_v4 : Sq.Idx → EReal) (((cfg1.win 3).blk t).view.emb (ix2 k q : S128x128.Idx)) = _
  refine congrArg (V c main_v4 : Sq.Idx → EReal) ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-! ## What a point writes back -/

/-- Entry (p, q) of the block the body leaves at point t is `combine` at (5000 t + p, q): it depends on row
    5000 t + p of the node features and of the gathered rows, and on column q of the two matrices. -/
theorem point_apply (c : Dev nD) (t : Fin cfg1.N) (p : Fin 5000) (q : Fin 128) (h : 5000 * t.val + p.val < 100000) :
    k1_pay1 (iblk1 V c 0 t) (iblk1 V c 1 t) (iblk1 V c 2 t) (iblk1 V c 3 t) (ix2 p q)
      = combine (V c main_arg0) (V c main_v18) (V c main_v2) (V c main_v4) (ix2 ⟨5000 * t.val + p.val, h⟩ q) := by
  refine (pay_apply _ _ _ _ p q).trans ?_
  rw [combine_apply]
  refine congrArg leakyAt (congrArg₂ (· + ·) (Finset.sum_congr rfl fun k _ => ?_) (Finset.sum_congr rfl fun k _ => ?_))
  · rw [rows_x V c t p k h, rows_n V c t p k h, mat_a V c t k q]
  · rw [rows_x V c t p k h, rows_n V c t p k h, mat_b V c t k q]

/-- The same at an index j of the block, the result's index spelt as the block's place in the array. -/
theorem block_entry (c : Dev nD) (t : Fin cfg1.N) (j : S5000x128.Idx) :
    k1_pay1 (iblk1 V c 0 t) (iblk1 V c 1 t) (iblk1 V c 2 t) (iblk1 V c 3 t) j
      = combine (V c main_arg0) (V c main_v18) (V c main_v2) (V c main_v4) (((cfg1.win 4).blk t).view.emb j) := by
  obtain ⟨p, q, rfl⟩ : ∃ (p : Fin 5000) (q : Fin 128), j = ix2 p q := ⟨j 0, j 1, eq_ix2 j⟩
  obtain ⟨-, -, -, -, -, -, -, -, e8, e9, ht⟩ := idx_facts t
  have h : 5000 * t.val + p.val < 100000 := by have := p.isLt; omega
  refine (point_apply V c t p q h).trans ?_
  refine congrArg (combine (V c main_arg0) (V c main_v18) (V c main_v2) (V c main_v4)) ?_
  funext a; apply Fin.ext
  match a with
  | ⟨0, _⟩ => show 5000 * t.val + p.val = win1_4.index t (0 : Fin 2) * 5000 + 1 * p.val; omega
  | ⟨1, _⟩ => show q.val = win1_4.index t (1 : Fin 2) * 128 + 1 * q.val; omega

/-- What point t writes back is block t of `combine` of the four arrays the region found. -/
theorem flushed_eq (c : Dev nD) (t : Fin cfg1.N) :
    (dat1 (F := Ideal) V c).flushed 4 t
      = ((cfg1.win 4).blk t).view.read (Elt Ideal)
          (combine (V c main_arg0) (V c main_v18) (V c main_v2) (V c main_v4)) := by
  show (cfg1.win 4).cut (grid1.coords t) ((dat1 V c).after 4 t) = _
  rw [after1_4]
  unfold out1_4
  rw [View.canon_unit_zero zeros]
  simp only [View.ld_unit_zero (S := S5000x128) zeros, View.ld_unit_zero (S := S128x128) zeros]
  funext j
  exact block_entry V c t j

/-! ## The blocks cover the array -/

/-- An index of the result array is in point t's block iff each coordinate is in the block's range on its axis. -/
theorem mem_blk (t : Fin cfg1.N) (i : S100000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v19).slice (win1_4.rect t)).set ↔ _
  rw [View.set_slice_whole, Rect.mem_set_unit]
  exact Iff.rfl

/-- Row r of the result lies in the block of point r / 5000, and every point writes back. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, e8, e9, -⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-! ## The array after the region -/

/-- After region 1 the result array is the combine stage of the four arrays the region found. -/
theorem final (c : Dev nD) :
    (dat1 (F := Ideal) V c).arrAt 4 cfg1.N = combine (V c main_arg0) (V c main_v18) (V c main_v2) (V c main_v4) :=
  (dat1 V c).arrAt_eq_of_cover 4 (combine (V c main_arg0) (V c main_v18) (V c main_v2) (V c main_v4))
    (fun t _ => flushed_eq V c t) cover

end Cert.Bridge.Region1

end
-- ==== Proof.KernelValue.lean ====
/-
  The kernel program's result buffer as a function of its arguments.

  The buffer contents at the boundaries of @main's four segments are a fold from the launch memory: the first host
  stretch writes the three transposed weights, region 0 writes the projected array, the second host stretch writes the
  edge stage's array from it, region 1 writes the result. Read backwards from the result: it is the combine stage of the
  node features, the edge stage's array and the two transposed half weights as region 1 found them; the edge stage's
  array is the edge stage of the projected array and the edge lists as the second stretch found them; the projected
  array is rows-times-matrix of the node features and the transposed weight as region 0 found them; and every argument
  is found as launched, because no host operation and no region writes an argument.
-/
import proofs.«146677_j18270790877214_1_alg».proof.Proof.Gen.KernelIdeal.Frame
import proofs.«146677_j18270790877214_1_alg».proof.Proof.Spec
import proofs.«146677_j18270790877214_1_alg».proof.Proof.KernelTerm
import proofs.«146677_j18270790877214_1_alg».proof.Proof.Region0Value
import proofs.«146677_j18270790877214_1_alg».proof.Proof.Region1Value
import Idealize.ShloMosaic.Lib.StableHlo.Run

set_option maxRecDepth 16384

noncomputable section

namespace Cert.Bridge.Kernel

open Cert.KernelIdeal Cert.KernelIdeal.Gen Cert.KernelIdeal.Facts₀ Cert.Bridge
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What region 0 finds -/

/-- The first host stretch writes no argument: region 0 finds the node features as launched. -/
theorem entry0_x (c : Dev nD) : V1 m ρ c main_arg0 = m ((c : Thread nD τ).loc main_arg0) := by
  show after hostOps0 (W0 m ρ c) (Proc.devRef .tc main_arg0) = _
  after_results

/-- It finds the 128 x 128 weight transposed. -/
theorem entry0_w (c : Dev nD) : V1 m ρ c main_v0 = w1T (m ((c : Thread nD τ).loc main_arg4)) := by
  show after hostOps0 (W0 m ρ c) (Proc.devRef .tc main_v0) = _
  after_results
  rfl

/-- The edge lists and weights after the first stretch are as launched. -/
theorem entry0_row (c : Dev nD) : V1 m ρ c main_arg1 = m ((c : Thread nD τ).loc main_arg1) := by
  show after hostOps0 (W0 m ρ c) (Proc.devRef .tc main_arg1) = _
  after_results
theorem entry0_col (c : Dev nD) : V1 m ρ c main_arg2 = m ((c : Thread nD τ).loc main_arg2) := by
  show after hostOps0 (W0 m ρ c) (Proc.devRef .tc main_arg2) = _
  after_results
theorem entry0_val (c : Dev nD) : V1 m ρ c main_arg3 = m ((c : Thread nD τ).loc main_arg3) := by
  show after hostOps0 (W0 m ρ c) (Proc.devRef .tc main_arg3) = _
  after_results

/-- The two transposed half weights after the first stretch. -/
theorem entry0_a (c : Dev nD) : V1 m ρ c main_v2 = w2aT (m ((c : Thread nD τ).loc main_arg5)) := by
  show after hostOps0 (W0 m ρ c) (Proc.devRef .tc main_v2) = _
  after_results
  rfl
theorem entry0_b (c : Dev nD) : V1 m ρ c main_v4 = w2bT (m ((c : Thread nD τ).loc main_arg5)) := by
  show after hostOps0 (W0 m ρ c) (Proc.devRef .tc main_v4) = _
  after_results
  rfl

/-! ## What region 0 leaves -/

/-- The projected array: every node's row times the transposed weight. -/
theorem exit0_proj (c : Dev nD) :
    V2 m ρ c main_v5 = rowsTimes (m ((c : Thread nD τ).loc main_arg0)) (w1T (m ((c : Thread nD τ).loc main_arg4))) := by
  refine (W2_arr m ρ c 2).trans ?_
  rw [Region0.final (V1 m ρ) c, entry0_x, entry0_w]

/-- Region 0 reads the node features through an input window and leaves them as it found them. -/
theorem exit0_x (c : Dev nD) : V2 m ρ c main_arg0 = m ((c : Thread nD τ).loc main_arg0) :=
  ((W2_arr m ρ c 0).trans (((dat0 (V1 m ρ) c).arrAt_in 0 rfl _).trans (A_eq0 (V1 m ρ) c 0))).trans (entry0_x m ρ c)

/-- A buffer that is none of region 0's three arrays is as the region found it. -/
theorem exit0_row (c : Dev nD) : V2 m ρ c main_arg1 = m ((c : Thread nD τ).loc main_arg1) :=
  (W2_of_ne m ρ c main_arg1 (by decide)).trans (entry0_row m ρ c)
theorem exit0_col (c : Dev nD) : V2 m ρ c main_arg2 = m ((c : Thread nD τ).loc main_arg2) :=
  (W2_of_ne m ρ c main_arg2 (by decide)).trans (entry0_col m ρ c)
theorem exit0_val (c : Dev nD) : V2 m ρ c main_arg3 = m ((c : Thread nD τ).loc main_arg3) :=
  (W2_of_ne m ρ c main_arg3 (by decide)).trans (entry0_val m ρ c)
theorem exit0_a (c : Dev nD) : V2 m ρ c main_v2 = w2aT (m ((c : Thread nD τ).loc main_arg5)) :=
  (W2_of_ne m ρ c main_v2 (by decide)).trans (entry0_a m ρ c)
theorem exit0_b (c : Dev nD) : V2 m ρ c main_v4 = w2bT (m ((c : Thread nD τ).loc main_arg5)) :=
  (W2_of_ne m ρ c main_v4 (by decide)).trans (entry0_b m ρ c)

/-! ## What region 1 finds -/

/-- The second host stretch writes only the edge stage's buffers: the node features and the half weights pass through. -/
theorem entry1_x (c : Dev nD) : V3 m ρ c main_arg0 = m ((c : Thread nD τ).loc main_arg0) := by
  show after hostOps1 (W2 m ρ c) (Proc.devRef .tc main_arg0) = _
  after_results
  exact exit0_x m ρ c
theorem entry1_a (c : Dev nD) : V3 m ρ c main_v2 = w2aT (m ((c : Thread nD τ).loc main_arg5)) := by
  show after hostOps1 (W2 m ρ c) (Proc.devRef .tc main_v2) = _
  after_results
  exact exit0_a m ρ c
theorem entry1_b (c : Dev nD) : V3 m ρ c main_v4 = w2bT (m ((c : Thread nD τ).loc main_arg5)) := by
  show after hostOps1 (W2 m ρ c) (Proc.devRef .tc main_v4) = _
  after_results
  exact exit0_b m ρ c

/-- The edge stage's array: the edge stage of the projected array and the edge lists. -/
theorem entry1_n (c : Dev nD) :
    V3 m ρ c main_v18
      = edges (rowsTimes (m ((c : Thread nD τ).loc main_arg0)) (w1T (m ((c : Thread nD τ).loc main_arg4))))
          (m ((c : Thread nD τ).loc main_arg1)) (m ((c : Thread nD τ).loc main_arg2)) (m ((c : Thread nD τ).loc main_arg3)) := by
  show after hostOps1 (W2 m ρ c) (Proc.devRef .tc main_v18) = _
  after_results
  have e5 : W2 m ρ c (Proc.devRef .tc main_v5) = _ := exit0_proj m ρ c
  have e1 : W2 m ρ c (Proc.devRef .tc main_arg1) = _ := exit0_row m ρ c
  have e2 : W2 m ρ c (Proc.devRef .tc main_arg2) = _ := exit0_col m ρ c
  have e3 : W2 m ρ c (Proc.devRef .tc main_arg3) = _ := exit0_val m ρ c
  rw [e5, e1, e2, e3]
  rfl

/-! ## The result -/

/-- The kernel program's result as a function of its arguments: the combine stage of the node features, the edge stage
    of their projection, and the two transposed half weights. -/
def out (x : FVec Ideal S100000x128 .f32) (row col : IVec S1600000 32) (val : FVec Ideal S1600000 .f32)
    (w1 : FVec Ideal S128x128 .f32) (w2 : FVec Ideal S128x256 .f32) : FVec Ideal S100000x128 .f32 :=
  combine x (edges (rowsTimes x (w1T w1)) row col val) (w2aT w2) (w2bT w2)

/-- After region 1 the result buffer holds `out` of the launch contents of the arguments. -/
theorem result (c : Dev nD) :
    W4 m ρ c (Proc.devRef .tc main_v19)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W4_arr m ρ c 4).trans ?_
  rw [Region1.final (V3 m ρ) c, entry1_x, entry1_n, entry1_a, entry1_b]
  rfl

end Cert.Bridge.Kernel

end
-- ==== Proof.RefRun.lean ====
/-
  The reference program run: its straight line of host operations (the rectifier's and its select's operations in place
  of their calls), every buffer after the run at the operations' fold over the launch contents, and the result buffer's
  fold read as the composition of the three stages (`Ref.out`) of the argument arrays; the arguments are written by no
  operation and end as launched.
-/
import proofs.«146677_j18270790877214_1_alg».proof.Proof.Gen.ReferenceIdeal
import proofs.«146677_j18270790877214_1_alg».proof.Proof.RefTerm
import Idealize.ShloMosaic.Lib.StableHlo.Run
import Idealize.ShloMosaic.Lib.Pipeline.Frame

noncomputable section

namespace Cert.Bridge.Ref

open Cert.ReferenceIdeal Cert.ReferenceIdeal.Facts₀
open Idealize.ShloMosaic Idealize.ShloMosaic.TcCoe Idealize.SL.Sem Idealize.ShloMosaic.StableHlo

variable {F : FTy → Type} [FloatOps F]

/-- The reference's operations in order: the projection (1-2), the edge stage (3-18), the two rows side by side against
    the transposed wide weight (19-23), the slope (24) and the rectifier (25-31). -/
abbrev ops : List (HloOp τ sig (Elt F)) :=
  [ unary main_arg4 main_v0 (transpose S128x128 [1, 0] · transposes_S128x128_S128x128_1_0),
    binary main_arg0 main_v0 main_v1 (fun l r => Host.dotGeneral dot_S100000x128_S128x128_S100000x128_1_0_0_1_n_n none l r),
    unary main_arg3 main_v2 (broadcastInDim S1600000x1 ![0] bcast_S1600000_S1600000x1_0),
    nullary main_c (constantI S_ 32 0#32),
    unary main_c main_v3 (broadcastInDim S1600000 ![] bcast_S_S1600000),
    binary main_arg2 main_v3 main_v4 (cmpi .slt),
    nullary main_c_0 (constantI S_ 32 100000#32),
    unary main_c_0 main_v5 (broadcastInDim S1600000 ![] bcast_S_S1600000),
    binary main_arg2 main_v5 main_v6 addi,
    ternary main_v4 main_v6 main_arg2 main_v7 select,
    unary main_v7 main_v8 (broadcastInDim S1600000x1 ![0] bcast_S1600000_S1600000x1_0),
    binary main_v1 main_v8 main_v9 (fun x i => Host.gather gather_S100000x128_S1600000x1_S1600000x128_1_0_n_n_0_1_1128 x i),
    unary main_v2 main_v10 (broadcastInDim S1600000x128 ![0, 1] bcast_S1600000x1_S1600000x128_0_1),
    binary main_v10 main_v9 main_v11 mulf,
    nullary main_cst (constant S_ .f32 0x00000000#32),
    unary main_cst main_v12 (broadcastInDim S100000x128 ![] bcast_S_S100000x128),
    unary main_arg1 main_v13 (broadcastInDim S1600000x1 ![0] bcast_S1600000_S1600000x1_0),
    ternary main_v12 main_v13 main_v11 main_v14 (fun x i u => Host.scatterAdd scatter_S100000x128_S1600000x1_S1600000x128_1_0_0_1 x i u),
    binary main_arg0 main_v14 main_v15 addf,
    binary main_arg0 main_v14 main_v16 mulf,
    binary main_v15 main_v16 main_v17 (fun a b => concatenate S100000x256 1 [⟨S100000x128, a⟩, ⟨S100000x128, b⟩] concatenates_S100000x128_S100000x128_S100000x256_d1),
    unary main_arg5 main_v18 (transpose S256x128 [1, 0] · transposes_S128x256_S256x128_1_0),
    binary main_v17 main_v18 main_v19 (fun l r => Host.dotGeneral dot_S100000x256_S256x128_S100000x128_1_0_0_1_n_n none l r),
    nullary main_cst_1 (constant S_ .f32 0x3C23D70A#32),
    TRef.nullary main_call0.cst (constant S_ .f32 0x00000000#32),
    TRef.unary main_call0.cst main_call0.v0 (broadcastInDim S100000x128 ![] bcast_S_S100000x128),
    TRef.binary (.of main_v19 : TRef sig ⟨S100000x128, .f32⟩) main_call0.v0 main_call0.v1 (cmpf .oge),
    TRef.unary (.of main_cst_1 : TRef sig ⟨S_, .f32⟩) main_call0.v2 id,
    TRef.unary main_call0.v2 main_call0.v3 (broadcastInDim S100000x128 ![] bcast_S_S100000x128),
    TRef.binary main_call0.v3 (.of main_v19 : TRef sig ⟨S100000x128, .f32⟩) main_call0.v4 mulf,
    TRef.ternary main_call0.v1 (.of main_v19 : TRef sig ⟨S100000x128, .f32⟩) main_call0.v4 main_call0.call0.v0 select ]

/-- The projection and the edge stage (operations 1 … 18). -/
abbrev opsEdge : List (HloOp τ sig (Elt F)) :=
  [ unary main_arg4 main_v0 (transpose S128x128 [1, 0] · transposes_S128x128_S128x128_1_0),
    binary main_arg0 main_v0 main_v1 (fun l r => Host.dotGeneral dot_S100000x128_S128x128_S100000x128_1_0_0_1_n_n none l r),
    unary main_arg3 main_v2 (broadcastInDim S1600000x1 ![0] bcast_S1600000_S1600000x1_0),
    nullary main_c (constantI S_ 32 0#32),
    unary main_c main_v3 (broadcastInDim S1600000 ![] bcast_S_S1600000),
    binary main_arg2 main_v3 main_v4 (cmpi .slt),
    nullary main_c_0 (constantI S_ 32 100000#32),
    unary main_c_0 main_v5 (broadcastInDim S1600000 ![] bcast_S_S1600000),
    binary main_arg2 main_v5 main_v6 addi,
    ternary main_v4 main_v6 main_arg2 main_v7 select,
    unary main_v7 main_v8 (broadcastInDim S1600000x1 ![0] bcast_S1600000_S1600000x1_0),
    binary main_v1 main_v8 main_v9 (fun x i => Host.gather gather_S100000x128_S1600000x1_S1600000x128_1_0_n_n_0_1_1128 x i),
    unary main_v2 main_v10 (broadcastInDim S1600000x128 ![0, 1] bcast_S1600000x1_S1600000x128_0_1),
    binary main_v10 main_v9 main_v11 mulf,
    nullary main_cst (constant S_ .f32 0x00000000#32),
    unary main_cst main_v12 (broadcastInDim S100000x128 ![] bcast_S_S100000x128),
    unary main_arg1 main_v13 (broadcastInDim S1600000x1 ![0] bcast_S1600000_S1600000x1_0),
    ternary main_v12 main_v13 main_v11 main_v14 (fun x i u => Host.scatterAdd scatter_S100000x128_S1600000x1_S1600000x128_1_0_0_1 x i u) ]

/-- The two rows side by side against the transposed wide weight (19 … 23). -/
abbrev opsWide : List (HloOp τ sig (Elt F)) :=
  [ binary main_arg0 main_v14 main_v15 addf,
    binary main_arg0 main_v14 main_v16 mulf,
    binary main_v15 main_v16 main_v17 (fun a b => concatenate S100000x256 1 [⟨S100000x128, a⟩, ⟨S100000x128, b⟩] concatenates_S100000x128_S100000x128_S100000x256_d1),
    unary main_arg5 main_v18 (transpose S256x128 [1, 0] · transposes_S128x256_S256x128_1_0),
    binary main_v17 main_v18 main_v19 (fun l r => Host.dotGeneral dot_S100000x256_S256x128_S100000x128_1_0_0_1_n_n none l r) ]

/-- The slope and the rectifier (24 … 31). -/
abbrev opsLeaky : List (HloOp τ sig (Elt F)) :=
  [ nullary main_cst_1 (constant S_ .f32 0x3C23D70A#32),
    TRef.nullary main_call0.cst (constant S_ .f32 0x00000000#32),
    TRef.unary main_call0.cst main_call0.v0 (broadcastInDim S100000x128 ![] bcast_S_S100000x128),
    TRef.binary (.of main_v19 : TRef sig ⟨S100000x128, .f32⟩) main_call0.v0 main_call0.v1 (cmpf .oge),
    TRef.unary (.of main_cst_1 : TRef sig ⟨S_, .f32⟩) main_call0.v2 id,
    TRef.unary main_call0.v2 main_call0.v3 (broadcastInDim S100000x128 ![] bcast_S_S100000x128),
    TRef.binary main_call0.v3 (.of main_v19 : TRef sig ⟨S100000x128, .f32⟩) main_call0.v4 mulf,
    TRef.ternary main_call0.v1 (.of main_v19 : TRef sig ⟨S100000x128, .f32⟩) main_call0.v4 main_call0.call0.v0 select ]

/-- The line is its three stretches one after the other. -/
theorem ops_split : (ops : List (HloOp τ sig (Elt F))) = opsEdge ++ (opsWide ++ opsLeaky) := rfl

set_option maxRecDepth 1024 in
/-- The program is that straight line: the two functions' bodies in place of their calls, sequencing reassociated. -/
theorem main_eq (c : Dev nD) : main (F := F) c = seq ops := by
  simp only [main, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    binary_bufs_sub .., binary_bufs_sub .., binary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- After the first stretch the edge stage's buffer holds the edge stage of the projection. -/
theorem edge_eq (V : Valuation τ sig (Elt Ideal)) :
    after (opsEdge (F := Ideal)) V (main_v14 : DevRef τ sig)
      = edges (proj (V (main_arg0 : DevRef τ sig)) (V (main_arg4 : DevRef τ sig))) (V (main_arg1 : DevRef τ sig))
          (V (main_arg2 : DevRef τ sig)) (V (main_arg3 : DevRef τ sig)) := by
  unfold edges proj
  after_results

/-- The first stretch writes neither the node features nor the wide weight. -/
theorem edge_keep_x (V : Valuation τ sig (Elt Ideal)) :
    after (opsEdge (F := Ideal)) V (main_arg0 : DevRef τ sig) = V (main_arg0 : DevRef τ sig) := by
  after_results
theorem edge_keep_w (V : Valuation τ sig (Elt Ideal)) :
    after (opsEdge (F := Ideal)) V (main_arg5 : DevRef τ sig) = V (main_arg5 : DevRef τ sig) := by
  after_results

/-- After the second stretch the product's buffer holds the wide product of what the stretch found. -/
theorem wide_eq (W : Valuation τ sig (Elt Ideal)) :
    after (opsWide (F := Ideal)) W (main_v19 : DevRef τ sig)
      = pre (W (main_arg0 : DevRef τ sig)) (W (main_v14 : DevRef τ sig)) (W (main_arg5 : DevRef τ sig)) := by
  unfold pre
  after_results

/-- After the third stretch the result buffer holds the rectifier of what the stretch found in the product's buffer. -/
theorem leaky_eq (W : Valuation τ sig (Elt Ideal)) :
    after (opsLeaky (F := Ideal)) W (main_v20 : DevRef τ sig) = leaky (W (main_v19 : DevRef τ sig)) := by
  unfold leaky
  after_results
  rfl

/-- The fold at the result buffer is the three stages composed, stretch by stretch; the large host operations stay
    folded, the equation never looks inside them. -/
theorem out_eq (V : Valuation τ sig (Elt Ideal)) :
    after (ops (F := Ideal)) V (main_v20 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split, StableHlo.after_append, StableHlo.after_append, leaky_eq, wide_eq, edge_eq, edge_keep_x, edge_keep_w]
  rfl

theorem arg0_eq (V : Valuation τ sig (Elt Ideal)) : after (ops (F := Ideal)) V (main_arg0 : DevRef τ sig) = V (main_arg0 : DevRef τ sig) := by
  after_results
theorem arg1_eq (V : Valuation τ sig (Elt Ideal)) : after (ops (F := Ideal)) V (main_arg1 : DevRef τ sig) = V (main_arg1 : DevRef τ sig) := by
  after_results
theorem arg2_eq (V : Valuation τ sig (Elt Ideal)) : after (ops (F := Ideal)) V (main_arg2 : DevRef τ sig) = V (main_arg2 : DevRef τ sig) := by
  after_results
theorem arg3_eq (V : Valuation τ sig (Elt Ideal)) : after (ops (F := Ideal)) V (main_arg3 : DevRef τ sig) = V (main_arg3 : DevRef τ sig) := by
  after_results
theorem arg4_eq (V : Valuation τ sig (Elt Ideal)) : after (ops (F := Ideal)) V (main_arg4 : DevRef τ sig) = V (main_arg4 : DevRef τ sig) := by
  after_results
theorem arg5_eq (V : Valuation τ sig (Elt Ideal)) : after (ops (F := Ideal)) V (main_arg5 : DevRef τ sig) = V (main_arg5 : DevRef τ sig) := by
  after_results

/-- Every weakly fair execution of the reference terminates with the result at `Ref.out` of the launch contents of its
    arguments, and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v20).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_seq scopedRefs_eq scopedSems_eq defs main (fun _ => ops (F := Ideal)) main_eq (fun _ => ops_sub) m ρ)

end Cert.Bridge.Ref

end
-- ==== Proof.RefValue.lean ====
/-
  The reference's projection and last stage read entry by entry.

  The projection is one product of the node rows with the transposed 128 x 128 weight: entry (r, j) is the sum over the
  128 inner positions k of x (r, k) * (transposed weight) (k, j). The last stage multiplies the 256-wide rows
  [x + n | x * n] by the transposed 128 x 256 weight; a sum over 256 inner positions is the sum over the first 128,
  where the wide row holds x + n and the transposed weight's row k is the weight's column k, plus the sum over the
  last 128, where the wide row holds x * n and the transposed weight's row 128 + k is the weight's column 128 + k.
  The two halves of the weight, each transposed, are exactly those two families of columns. The rectifier acts entry by
  entry. Only re-indexing of finite sums and the splitting of a sum over 256 positions into two halves are used.
-/
import proofs.«146677_j18270790877214_1_alg».proof.Proof.Gen.KernelIdeal
import proofs.«146677_j18270790877214_1_alg».proof.Proof.RefTerm
import proofs.«146677_j18270790877214_1_alg».proof.Proof.Spec
import proofs.«146677_j18270790877214_1_alg».proof.Proof.LibContraction
import Idealize.ShloMosaic.PureOps.Ideal.Laws
import Idealize.ShloMosaic.Lib.ValueIdx
import Idealize.ShloMosaic.Lib.Pipeline.Value

set_option maxRecDepth 16384

noncomputable section

open scoped BigOperators

open Idealize.ShloMosaic Idealize.ShloMosaic.ValueIdx

namespace Cert.Bridge.Ref

open Cert.ReferenceIdeal Cert.Bridge Cert.Lib.Contraction

/-! ## The projection's product: 128 inner positions -/

/-- The inner positions of the projection's product, numbered 0 … 127. -/
abbrev projPos : dot_S100000x128_S128x128_S100000x128_1_0_0_1_n_n.contr.Idx ≃ Fin 128 :=
  contrFin dot_S100000x128_S128x128_S100000x128_1_0_0_1_n_n (cl := 1) rfl 128 rfl

/-- The rows are read in the result's row … -/
theorem proj_lhs_row (j : S100000x128.Idx) (k : dot_S100000x128_S128x128_S100000x128_1_0_0_1_n_n.contr.Idx) :
    (dot_S100000x128_S128x128_S100000x128_1_0_0_1_n_n.lhsIdx j k 0).val = (j 0).val :=
  lhs_free dot_S100000x128_S128x128_S100000x128_1_0_0_1_n_n (nl := 0) rfl rfl j k (by decide)

/-- … at the inner position; -/
theorem proj_lhs_inner (j : S100000x128.Idx) (i : Fin 128) :
    (dot_S100000x128_S128x128_S100000x128_1_0_0_1_n_n.lhsIdx j (projPos.symm i) 1).val = i.val :=
  lhs_contracted dot_S100000x128_S128x128_S100000x128_1_0_0_1_n_n (cl := 1) rfl 128 rfl j i

/-- the matrix at the inner position … -/
theorem proj_rhs_inner (j : S100000x128.Idx) (i : Fin 128) :
    (dot_S100000x128_S128x128_S100000x128_1_0_0_1_n_n.rhsIdx j (projPos.symm i) 0).val = i.val :=
  rhs_contracted dot_S100000x128_S128x128_S100000x128_1_0_0_1_n_n (cl := 1) (cr := 0) rfl rfl 128 rfl j i

/-- … in the result's column. -/
theorem proj_rhs_col (j : S100000x128.Idx) (k : dot_S100000x128_S128x128_S100000x128_1_0_0_1_n_n.contr.Idx) :
    (dot_S100000x128_S128x128_S100000x128_1_0_0_1_n_n.rhsIdx j k 1).val = (j 1).val :=
  rhs_free dot_S100000x128_S128x128_S100000x128_1_0_0_1_n_n (nl := 0) (nr := 1) rfl rfl rfl rfl j k (by decide)

/-- Entry (p, q) of rows times a 128 x 128 matrix is the sum over the inner positions of row (p, k) * matrix (k, q). -/
theorem dot_proj_apply (l : FVec Ideal S100000x128 .f32) (m : FVec Ideal S128x128 .f32) (p : Fin 100000) (q : Fin 128) :
    Host.dotGeneral dot_S100000x128_S128x128_S100000x128_1_0_0_1_n_n none l m (ix2 p q) = ∑ k : Fin 128, l (ix2 p k) * m (ix2 k q) := by
  simp only [Host.dotGeneral]
  rw [Ideal.dotGeneral_apply]
  refine (sum_contr dot_S100000x128_S128x128_S100000x128_1_0_0_1_n_n (cl := 1) rfl 128 rfl _).trans ?_
  refine Finset.sum_congr rfl fun k _ => ?_
  have hl : dot_S100000x128_S128x128_S100000x128_1_0_0_1_n_n.lhsIdx (ix2 p q) (projPos.symm k) = ix2 p k := by
    funext a; apply Fin.ext
    match a with
    | ⟨0, _⟩ => exact proj_lhs_row _ _
    | ⟨1, _⟩ => exact proj_lhs_inner _ _
  have hr : dot_S100000x128_S128x128_S100000x128_1_0_0_1_n_n.rhsIdx (ix2 p q) (projPos.symm k) = ix2 k q := by
    funext a; apply Fin.ext
    match a with
    | ⟨0, _⟩ => exact proj_rhs_inner _ _
    | ⟨1, _⟩ => exact proj_rhs_col _ _
  show l (dot_S100000x128_S128x128_S100000x128_1_0_0_1_n_n.lhsIdx (ix2 p q) (projPos.symm k))
      * m (dot_S100000x128_S128x128_S100000x128_1_0_0_1_n_n.rhsIdx (ix2 p q) (projPos.symm k)) = _
  rw [hl, hr]

/-- The reference's projection is rows times the transposed weight, entry by entry a sum over 128 positions. -/
theorem proj_eq (x : FVec Ideal S100000x128 .f32) (w1 : FVec Ideal S128x128 .f32) :
    proj x w1 = rowsTimes x (transpose S128x128 [1, 0] w1 Facts₀.transposes_S128x128_S128x128_1_0) := by
  funext i
  obtain ⟨r, j, rfl⟩ : ∃ (r : Fin 100000) (j : Fin 128), i = ix2 r j := ⟨i 0, i 1, eq_ix2 i⟩
  rw [rowsTimes_apply]
  exact dot_proj_apply x _ r j

/-! ## The last stage's product: 256 inner positions -/

/-- The inner positions of the last stage's product, numbered 0 … 255. -/
abbrev prePos : dot_S100000x256_S256x128_S100000x128_1_0_0_1_n_n.contr.Idx ≃ Fin 256 :=
  contrFin dot_S100000x256_S256x128_S100000x128_1_0_0_1_n_n (cl := 1) rfl 256 rfl

/-- The wide rows are read in the result's row … -/
theorem pre_lhs_row (j : S100000x128.Idx) (k : dot_S100000x256_S256x128_S100000x128_1_0_0_1_n_n.contr.Idx) :
    (dot_S100000x256_S256x128_S100000x128_1_0_0_1_n_n.lhsIdx j k 0).val = (j 0).val :=
  lhs_free dot_S100000x256_S256x128_S100000x128_1_0_0_1_n_n (nl := 0) rfl rfl j k (by decide)

/-- … at the inner position; -/
theorem pre_lhs_inner (j : S100000x128.Idx) (i : Fin 256) :
    (dot_S100000x256_S256x128_S100000x128_1_0_0_1_n_n.lhsIdx j (prePos.symm i) 1).val = i.val :=
  lhs_contracted dot_S100000x256_S256x128_S100000x128_1_0_0_1_n_n (cl := 1) rfl 256 rfl j i

/-- the tall matrix at the inner position … -/
theorem pre_rhs_inner (j : S100000x128.Idx) (i : Fin 256) :
    (dot_S100000x256_S256x128_S100000x128_1_0_0_1_n_n.rhsIdx j (prePos.symm i) 0).val = i.val :=
  rhs_contracted dot_S100000x256_S256x128_S100000x128_1_0_0_1_n_n (cl := 1) (cr := 0) rfl rfl 256 rfl j i

/-- … in the result's column. -/
theorem pre_rhs_col (j : S100000x128.Idx) (k : dot_S100000x256_S256x128_S100000x128_1_0_0_1_n_n.contr.Idx) :
    (dot_S100000x256_S256x128_S100000x128_1_0_0_1_n_n.rhsIdx j k 1).val = (j 1).val :=
  rhs_free dot_S100000x256_S256x128_S100000x128_1_0_0_1_n_n (nl := 0) (nr := 1) rfl rfl rfl rfl j k (by decide)

/-- Entry (p, q) of wide rows times a 256 x 128 matrix is the sum over the 256 inner positions of
    row (p, k) * matrix (k, q). -/
theorem dot_pre_apply (l : FVec Ideal S100000x256 .f32) (m : FVec Ideal S256x128 .f32) (p : Fin 100000) (q : Fin 128) :
    Host.dotGeneral dot_S100000x256_S256x128_S100000x128_1_0_0_1_n_n none l m (ix2 p q) = ∑ k : Fin 256, l (ix2 p k) * m (ix2 k q) := by
  simp only [Host.dotGeneral]
  rw [Ideal.dotGeneral_apply]
  refine (sum_contr dot_S100000x256_S256x128_S100000x128_1_0_0_1_n_n (cl := 1) rfl 256 rfl _).trans ?_
  refine Finset.sum_congr rfl fun k _ => ?_
  have hl : dot_S100000x256_S256x128_S100000x128_1_0_0_1_n_n.lhsIdx (ix2 p q) (prePos.symm k) = ix2 p k := by
    funext a; apply Fin.ext
    match a with
    | ⟨0, _⟩ => exact pre_lhs_row _ _
    | ⟨1, _⟩ => exact pre_lhs_inner _ _
  have hr : dot_S100000x256_S256x128_S100000x128_1_0_0_1_n_n.rhsIdx (ix2 p q) (prePos.symm k) = ix2 k q := by
    funext a; apply Fin.ext
    match a with
    | ⟨0, _⟩ => exact pre_rhs_inner _ _
    | ⟨1, _⟩ => exact pre_rhs_col _ _
  show l (dot_S100000x256_S256x128_S100000x128_1_0_0_1_n_n.lhsIdx (ix2 p q) (prePos.symm k))
      * m (dot_S100000x256_S256x128_S100000x128_1_0_0_1_n_n.rhsIdx (ix2 p q) (prePos.symm k)) = _
  rw [hl, hr]

/-! ## The operands of the last stage read by coordinates -/

/-- The transposed wide weight at (k, q) is the weight at (q, k). -/
theorem wideT_apply (w2 : FVec Ideal S128x256 .f32) (k : Fin 256) (q : Fin 128) :
    transpose S256x128 [1, 0] w2 Facts₀.transposes_S128x256_S256x128_1_0 (ix2 k q) = w2 (ix2 q k) := by
  refine transpose_apply _ _ _ _ _ fun b => ?_
  match b with
  | ⟨0, _⟩ => rfl
  | ⟨1, _⟩ => rfl

/-- The wide row's first 128 positions hold x + n. -/
theorem wide_left (x n : FVec Ideal S100000x128 .f32) (p : Fin 100000) (k : Fin 128) :
    concatenate S100000x256 1 [⟨S100000x128, addf x n⟩, ⟨S100000x128, mulf x n⟩]
        Facts₀.concatenates_S100000x128_S100000x128_S100000x256_d1 (ix2 p ⟨k.val, by omega⟩)
      = x (ix2 p k) + n (ix2 p k) := by
  refine (concatenate_pair_apply_left (t := S100000x256) (s₁ := S100000x128) (s₂ := S100000x128) 1 (addf x n) (mulf x n)
    Facts₀.concatenates_S100000x128_S100000x128_S100000x256_d1 (ix2 p ⟨k.val, by omega⟩) rfl (ix2 p k) fun b => ?_).trans rfl
  match b with
  | ⟨0, _⟩ => rfl
  | ⟨1, _⟩ => rfl

/-- The wide row's last 128 positions hold x * n. -/
theorem wide_right (x n : FVec Ideal S100000x128 .f32) (p : Fin 100000) (k : Fin 128) :
    concatenate S100000x256 1 [⟨S100000x128, addf x n⟩, ⟨S100000x128, mulf x n⟩]
        Facts₀.concatenates_S100000x128_S100000x128_S100000x256_d1 (ix2 p ⟨128 + k.val, by omega⟩)
      = x (ix2 p k) * n (ix2 p k) := by
  refine (concatenate_pair_apply_right (t := S100000x256) (s₁ := S100000x128) (s₂ := S100000x128) 1 (addf x n) (mulf x n)
    Facts₀.concatenates_S100000x128_S100000x128_S100000x256_d1 (ix2 p ⟨128 + k.val, by omega⟩) rfl rfl (ix2 p k)
    (fun b hb => ?_) ?_).trans rfl
  · match b with
    | ⟨0, _⟩ => rfl
    | ⟨1, _⟩ => exact absurd rfl hb
  · show k.val + 128 = 128 + k.val
    omega

/-- The first half of the wide weight, transposed, at (k, q) is the weight at (q, k). -/
theorem halfA_apply (w2 : FVec Ideal S128x256 .f32) (k q : Fin 128) :
    transpose Cert.KernelIdeal.S128x128 [1, 0]
        (extractStridedSlice Cert.KernelIdeal.S128x128 ![0, 0] w2 Cert.KernelIdeal.Facts₀.slices_S128x256_S128x128_0_0)
        Cert.KernelIdeal.Facts₀.transposes_S128x128_S128x128_1_0 (ix2 k q)
      = w2 (ix2 q ⟨k.val, by omega⟩) := by
  refine (transpose_apply _ _ _ _ (ix2 q k) fun b => ?_).trans ?_
  · match b with
    | ⟨0, _⟩ => rfl
    | ⟨1, _⟩ => rfl
  · refine extractStridedSlice_apply _ _ _ _ _ fun a => ?_
    match a with
    | ⟨0, _⟩ => exact (Nat.zero_add _).symm
    | ⟨1, _⟩ => exact (Nat.zero_add _).symm

/-- The second half of the wide weight, transposed, at (k, q) is the weight at (q, 128 + k). -/
theorem halfB_apply (w2 : FVec Ideal S128x256 .f32) (k q : Fin 128) :
    transpose Cert.KernelIdeal.S128x128 [1, 0]
        (extractStridedSlice Cert.KernelIdeal.S128x128 ![0, 128] w2 Cert.KernelIdeal.Facts₀.slices_S128x256_S128x128_0_128)
        Cert.KernelIdeal.Facts₀.transposes_S128x128_S128x128_1_0 (ix2 k q)
      = w2 (ix2 q ⟨128 + k.val, by omega⟩) := by
  refine (transpose_apply _ _ _ _ (ix2 q k) fun b => ?_).trans ?_
  · match b with
    | ⟨0, _⟩ => rfl
    | ⟨1, _⟩ => rfl
  · refine extractStridedSlice_apply _ _ _ _ _ fun a => ?_
    match a with
    | ⟨0, _⟩ => exact (Nat.zero_add _).symm
    | ⟨1, _⟩ => rfl

/-! ## The last stage -/

/-- Before the rectifier, entry (r, j) is the sum over the first 128 columns of the weight's row j against x + n plus
    the sum over its last 128 columns against x * n. -/
theorem pre_apply (x n : FVec Ideal S100000x128 .f32) (w2 : FVec Ideal S128x256 .f32) (r : Fin 100000) (j : Fin 128) :
    pre x n w2 (ix2 r j)
      = (∑ k : Fin 128, (x (ix2 r k) + n (ix2 r k)) * w2 (ix2 j ⟨k.val, by omega⟩))
        + ∑ k : Fin 128, (x (ix2 r k) * n (ix2 r k)) * w2 (ix2 j ⟨128 + k.val, by omega⟩) := by
  unfold pre
  rw [dot_pre_apply, sum_halves]
  congr 1
  · refine Finset.sum_congr rfl fun k _ => ?_
    rw [wide_left, wideT_apply]
  · refine Finset.sum_congr rfl fun k _ => ?_
    rw [wide_right, wideT_apply]

/-- The rectifier acts entry by entry. -/
theorem leaky_apply (v : FVec Ideal S100000x128 .f32) (i : S100000x128.Idx) : leaky v i = leakyAt (v i) := rfl

/-- The reference's last stage is the combine stage with the two halves of the wide weight, each transposed. -/
theorem last_eq (x n : FVec Ideal S100000x128 .f32) (w2 : FVec Ideal S128x256 .f32) :
    leaky (pre x n w2)
      = combine x n
          (transpose Cert.KernelIdeal.S128x128 [1, 0]
            (extractStridedSlice Cert.KernelIdeal.S128x128 ![0, 0] w2 Cert.KernelIdeal.Facts₀.slices_S128x256_S128x128_0_0)
            Cert.KernelIdeal.Facts₀.transposes_S128x128_S128x128_1_0)
          (transpose Cert.KernelIdeal.S128x128 [1, 0]
            (extractStridedSlice Cert.KernelIdeal.S128x128 ![0, 128] w2 Cert.KernelIdeal.Facts₀.slices_S128x256_S128x128_0_128)
            Cert.KernelIdeal.Facts₀.transposes_S128x128_S128x128_1_0) := by
  funext i
  obtain ⟨r, j, rfl⟩ : ∃ (r : Fin 100000) (j : Fin 128), i = ix2 r j := ⟨i 0, i 1, eq_ix2 i⟩
  rw [leaky_apply, combine_apply, pre_apply]
  congr 2
  · refine Finset.sum_congr rfl fun k _ => ?_
    rw [halfA_apply]
  · refine Finset.sum_congr rfl fun k _ => ?_
    rw [halfB_apply]

end Cert.Bridge.Ref

end
-- ==== Proof.lean ====
/-
  A graph layer on 100000 nodes with 128 features and 1600000 weighted edges, computed two ways, and the certificate
  that the two ways agree at the extended reals.

  The kernel program projects every node's row by the transposed 128 x 128 weight in a first tiled region (blocks of
  5000 rows), runs the edge stage on the host (the projected row of each edge's source, scaled by the edge's weight,
  added into the row of the edge's target), and in a second tiled region forms, for a node's own row x and its
  gathered row n, the rectified (x + n) A + (x * n) B, where A and B are the transposed left and right halves of the
  128 x 256 weight. The reference does the projection as one matrix product, the same edge stage, and the last stage
  as ONE product of the 256-wide row [x + n, x * n] with the transposed wide weight, then the same rectifier.

  At the extended reals a change of float format is the identity, so the kernel's half-precision casts vanish; a
  block's matrix product into zero is the plain sum over the 128 inner positions; the twenty blocks of 5000 rows cover
  the 100000 rows; and the only law between the two sides is that a sum over 256 positions is the sum over its first
  128 plus the sum over its last 128. The edge stage is the same function on both sides and is never opened. No
  finiteness of the inputs is used.

  The modules: Spec (the mathematics: rowsTimes, combine, the halves law), BlockMatmul and LibContraction (a block's
  product read at an entry), Region0Value and Region1Value (each region's array after its run, from its blocks),
  KernelTerm and KernelValue (the kernel program's result buffer as a function of its arguments, read back through the
  segment boundaries), KernelLaunch (the kernel program's run with the result buffer named), RefTerm, RefRun and
  RefValue (the reference's run and its stages read entry by entry).
-/
import proofs.«146677_j18270790877214_1_alg».proof.Defs
import proofs.«146677_j18270790877214_1_alg».proof.Proof.Gen.Kernel
import proofs.«146677_j18270790877214_1_alg».proof.Proof.Gen.Kernel.Frame
import proofs.«146677_j18270790877214_1_alg».proof.Proof.Gen.KernelIdeal
import proofs.«146677_j18270790877214_1_alg».proof.Proof.Gen.KernelIdeal.Frame
import proofs.«146677_j18270790877214_1_alg».proof.Proof.Gen.ReferenceIdeal
import proofs.«146677_j18270790877214_1_alg».proof.Proof.Gen.Pre_finite_inputs
import proofs.«146677_j18270790877214_1_alg».proof.Proof.KernelLaunch
import proofs.«146677_j18270790877214_1_alg».proof.Proof.KernelValue
import proofs.«146677_j18270790877214_1_alg».proof.Proof.RefRun
import proofs.«146677_j18270790877214_1_alg».proof.Proof.RefValue
import Idealize.ShloMosaic.Adequacy
import Idealize.ShloMosaic.Init

noncomputable section

namespace Cert.Proof

open Idealize.ShloMosaic Idealize.ShloMosaic.TcCoe Idealize.SL.Sem Cert.Bridge

/-- The two programs' results are one function of the arguments: the reference's last stage is the combine stage over
    the two transposed half weights (the halves law), its projection is rows-times-matrix, and the edge stage and the
    transposed 128 x 128 weight are the same terms on both sides. -/
theorem out_eq (x : FVec Ideal Cert.KernelIdeal.S100000x128 .f32) (row col : IVec Cert.KernelIdeal.S1600000 32)
    (val : FVec Ideal Cert.KernelIdeal.S1600000 .f32) (w1 : FVec Ideal Cert.KernelIdeal.S128x128 .f32)
    (w2 : FVec Ideal Cert.KernelIdeal.S128x256 .f32) :
    Ref.out x row col val w1 w2 = Kernel.out x row col val w1 w2 := by
  unfold Ref.out Kernel.out
  rw [Ref.last_eq, Ref.proj_eq]
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Ref.run m ρ)

/-- The idealization rewrote nothing: there is nothing to preserve. -/
theorem preserves : Cert.preserves_Kernel_KernelIdeal := trivial

/-- Both programs end with the result at `Kernel.out` of the arguments they agree on. -/
theorem algebraic : Cert.algebraic_KernelIdeal_ReferenceIdeal := by
  intro m ρ m' ρ' _ hagree
  refine ⟨fun c => Kernel.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (Kernel.result m ρ c), (h c).2⟩)
      (Cert.KernelIdeal.Launched.run_main (F := Ideal) m ρ)
  · refine (θ_run Cert.ReferenceIdeal.defs _ _).mono (fun _ h c => ⟨(h c).1.trans ?_, (h c).2⟩) (Ref.run m' ρ')
    rw [(hagree c).1, (hagree c).2.1, (hagree c).2.2.1, (hagree c).2.2.2.1, (hagree c).2.2.2.2.1, (hagree c).2.2.2.2.2]
    exact out_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
